-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x64 : Shape := ⟨3, ![16, 8192, 64]⟩
abbrev S_ : Shape := ⟨0, ![]⟩

class Facts : Prop where
  bcast_S_S16x8192x64 : S_.BroadcastsInDim S16x8192x64 (![] : Fin 0 → Fin S16x8192x64.rank)
  reducesTo_S16x8192x64_S_d0_1_2 : S16x8192x64.ReducesTo [0, 1, 2] S_
  h_S_ : 0 < S_.numel

variable [Facts]

def fn {F : FTy → Type} [FloatOps F] (main_arg0 : FVec F S16x8192x64 .f32) (main_arg1 : FVec F S16x8192x64 .f32) (main_arg2 : FVec F S16x8192x64 .f32) : IVec S_ 1 :=
  let main_v0 : FVec F S16x8192x64 .f32 := Host.absf main_arg0
  let main_cst : FVec F S_ .f32 := constant S_ .f32 0x7F800000#32
  let main_v1 : FVec F S16x8192x64 .f32 := broadcastInDim S16x8192x64 ![] bcast_S_S16x8192x64 main_cst
  let main_v2 : IVec S16x8192x64 1 := cmpf .olt main_v0 main_v1
  let main_c : IVec S_ 1 := constantI S_ 1 1#1
  let main_v3 : IVec S_ 1 := (fun x v => Host.reduce IntOp.andi x v reducesTo_S16x8192x64_S_d0_1_2 h_S_) main_v2 main_c
  let main_v4 : FVec F S16x8192x64 .f32 := Host.absf main_arg1
  let main_cst_0 : FVec F S_ .f32 := constant S_ .f32 0x7F800000#32
  let main_v5 : FVec F S16x8192x64 .f32 := broadcastInDim S16x8192x64 ![] bcast_S_S16x8192x64 main_cst_0
  let main_v6 : IVec S16x8192x64 1 := cmpf .olt main_v4 main_v5
  let main_c_1 : IVec S_ 1 := constantI S_ 1 1#1
  let main_v7 : IVec S_ 1 := (fun x v => Host.reduce IntOp.andi x v reducesTo_S16x8192x64_S_d0_1_2 h_S_) main_v6 main_c_1
  let main_v8 : IVec S_ 1 := andi main_v3 main_v7
  let main_v9 : FVec F S16x8192x64 .f32 := Host.absf main_arg2
  let main_cst_2 : FVec F S_ .f32 := constant S_ .f32 0x7F800000#32
  let main_v10 : FVec F S16x8192x64 .f32 := broadcastInDim S16x8192x64 ![] bcast_S_S16x8192x64 main_cst_2
  let main_v11 : IVec S16x8192x64 1 := cmpf .olt main_v9 main_v10
  let main_c_3 : IVec S_ 1 := constantI S_ 1 1#1
  let main_v12 : IVec S_ 1 := (fun x v => Host.reduce IntOp.andi x v reducesTo_S16x8192x64_S_d0_1_2 h_S_) main_v11 main_c_3
  let main_v13 : IVec S_ 1 := andi main_v8 main_v12
  main_v13
-- ==== Kernel.lean ====
abbrev S16x8192x64 : Shape := ⟨3, ![16, 8192, 64]⟩
abbrev S1x8192x64 : Shape := ⟨3, ![1, 8192, 64]⟩
abbrev S8192x64 : Shape := ⟨2, ![8192, 64]⟩
abbrev S64x64 : Shape := ⟨2, ![64, 64]⟩

abbrev nBuf : Space → Nat
  | .hbm => 4
  | .vmem => 8
  | .smem => 0
  | _ => 0

abbrev bufTy : (tb : Table) → Fin (tcTables nBuf tb) → BufTy
  | .hbm, ⟨0, _⟩ => ⟨S16x8192x64, .f32⟩
  | .hbm, ⟨1, _⟩ => ⟨S16x8192x64, .f32⟩
  | .hbm, ⟨2, _⟩ => ⟨S16x8192x64, .f32⟩
  | .hbm, ⟨3, _⟩ => ⟨S16x8192x64, .f32⟩
  | .local _ .vmem, ⟨0, _⟩ => ⟨S1x8192x64, .f32⟩
  | .local _ .vmem, ⟨1, _⟩ => ⟨S1x8192x64, .f32⟩
  | .local _ .vmem, ⟨2, _⟩ => ⟨S1x8192x64, .f32⟩
  | .local _ .vmem, ⟨3, _⟩ => ⟨S1x8192x64, .f32⟩
  | .local _ .vmem, ⟨4, _⟩ => ⟨S1x8192x64, .f32⟩
  | .local _ .vmem, ⟨5, _⟩ => ⟨S1x8192x64, .f32⟩
  | .local _ .vmem, ⟨6, _⟩ => ⟨S1x8192x64, .f32⟩
  | .local _ .vmem, ⟨7, _⟩ => ⟨S1x8192x64, .f32⟩
  | _, _ => ⟨S16x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8192x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x8192x64_S1x8192x64_0_0_0 : ∀ a, (![0, 0, 0] : Fin 3 → Nat) a + S1x8192x64.size a ≤ S1x8192x64.size a
  h_S1x8192x64 : 0 < S1x8192x64.numel
  shapeCasts_S1x8192x64_S8192x64 : S1x8192x64.ShapeCasts S8192x64
  bitsLt_bf16_f32 : FTy.bits .bf16 < FTy.bits .f32
  shapeCasts_S8192x64_S1x8192x64 : S8192x64.ShapeCasts S1x8192x64
  dot_S8192x64_S8192x64_S64x64_0_0_1_1_n_n_wf : DotDims.WF S8192x64 S8192x64 S64x64 [0] [0] [1] [1] [] []
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x64.size a ≤ S16x8192x64.size a
  hwx0_0 : ∀ i : grid0.Coords, EltTy.bits .f32 = 32 ∨ (Rect.block (s := S16x8192x64) S1x8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x64.size a ≤ S16x8192x64.size a
  hwx0_1 : ∀ i : grid0.Coords, EltTy.bits .f32 = 32 ∨ (Rect.block (s := S16x8192x64) S1x8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192x64.size a ≤ S16x8192x64.size a
  hwx0_2 : ∀ i : grid0.Coords, EltTy.bits .f32 = 32 ∨ (Rect.block (s := S16x8192x64) S1x8192x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8192x64.size a ≤ S16x8192x64.size a
  hwx0_3 : ∀ i : grid0.Coords, EltTy.bits .f32 = 32 ∨ (Rect.block (s := S16x8192x64) S1x8192x64.size (cc0_transform_3 i) (hinb0_3 i)).WholeWords (EltTy.packing .f32)

variable [Facts₀]

def dot_S8192x64_S8192x64_S64x64_0_0_1_1_n_n : DotDims S8192x64 S8192x64 S64x64 where
  lhsContracting := [0]
  rhsContracting := [0]
  lhsNonContracting := [1]
  rhsNonContracting := [1]
  lhsBatch := []
  rhsBatch := []
  wf := dot_S8192x64_S8192x64_S64x64_0_0_1_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_arg0) S1x8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x8192x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x8192x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x8192x64 : Shape := ⟨3, ![16, 8192, 64]⟩
abbrev S_ : Shape := ⟨0, ![]⟩
abbrev S16x64x64 : Shape := ⟨3, ![16, 64, 64]⟩

abbrev nBuf : Space → Nat
  | .hbm => 30
  | .vmem => 0
  | .smem => 0
  | _ => 0

abbrev bufTy : (tb : Table) → Fin (tcTables nBuf tb) → BufTy
  | .hbm, ⟨0, _⟩ => ⟨S16x8192x64, .f32⟩
  | .hbm, ⟨1, _⟩ => ⟨S16x8192x64, .f32⟩
  | .hbm, ⟨2, _⟩ => ⟨S16x8192x64, .f32⟩
  | .hbm, ⟨3, _⟩ => ⟨S_, .f32⟩
  | .hbm, ⟨4, _⟩ => ⟨S16x8192x64, .f32⟩
  | .hbm, ⟨5, _⟩ => ⟨S16x8192x64, .i1⟩
  | .hbm, ⟨6, _⟩ => ⟨S_, .f32⟩
  | .hbm, ⟨7, _⟩ => ⟨S16x8192x64, .f32⟩
  | .hbm, ⟨8, _⟩ => ⟨S16x8192x64, .f32⟩
  | .hbm, ⟨9, _⟩ => ⟨S_, .f32⟩
  | .hbm, ⟨10, _⟩ => ⟨S16x8192x64, .f32⟩
  | .hbm, ⟨11, _⟩ => ⟨S16x8192x64, .f32⟩
  | .hbm, ⟨12, _⟩ => ⟨S16x8192x64, .f32⟩
  | .hbm, ⟨13, _⟩ => ⟨S16x8192x64, .f32⟩
  | .hbm, ⟨14, _⟩ => ⟨S_, .f32⟩
  | .hbm, ⟨15, _⟩ => ⟨S16x8192x64, .f32⟩
  | .hbm, ⟨16, _⟩ => ⟨S16x8192x64, .i1⟩
  | .hbm, ⟨17, _⟩ => ⟨S_, .f32⟩
  | .hbm, ⟨18, _⟩ => ⟨S16x8192x64, .f32⟩
  | .hbm, ⟨19, _⟩ => ⟨S16x8192x64, .f32⟩
  | .hbm, ⟨20, _⟩ => ⟨S_, .f32⟩
  | .hbm, ⟨21, _⟩ => ⟨S16x8192x64, .f32⟩
  | .hbm, ⟨22, _⟩ => ⟨S16x8192x64, .f32⟩
  | .hbm, ⟨23, _⟩ => ⟨S16x8192x64, .f32⟩
  | .hbm, ⟨24, _⟩ => ⟨S16x8192x64, .f32⟩
  | .hbm, ⟨25, _⟩ => ⟨S16x64x64, .f32⟩
  | .hbm, ⟨26, _⟩ => ⟨S16x8192x64, .f32⟩
  | .hbm, ⟨27, _⟩ => ⟨S_, .f32⟩
  | .hbm, ⟨28, _⟩ => ⟨S16x8192x64, .f32⟩
  | .hbm, ⟨29, _⟩ => ⟨S16x8192x64, .f32⟩
  | _, _ => ⟨S16x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S16x8192x64 : S_.BroadcastsInDim S16x8192x64 (![] : Fin 0 → Fin S16x8192x64.rank)
  dot_S16x8192x64_S16x8192x64_S16x64x64_1_1_2_2_0_0_wf : DotDims.WF S16x8192x64 S16x8192x64 S16x64x64 [1] [1] [2] [2] [0] [0]
  dot_S16x8192x64_S16x64x64_S16x8192x64_2_1_1_2_0_0_wf : DotDims.WF S16x8192x64 S16x64x64 S16x8192x64 [2] [1] [1] [2] [0] [0]

variable [Facts₀]

def dot_S16x8192x64_S16x8192x64_S16x64x64_1_1_2_2_0_0 : DotDims S16x8192x64 S16x8192x64 S16x64x64 where
  lhsContracting := [1]
  rhsContracting := [1]
  lhsNonContracting := [2]
  rhsNonContracting := [2]
  lhsBatch := [0]
  rhsBatch := [0]
  wf := dot_S16x8192x64_S16x8192x64_S16x64x64_1_1_2_2_0_0_wf
def dot_S16x8192x64_S16x64x64_S16x8192x64_2_1_1_2_0_0 : DotDims S16x8192x64 S16x64x64 S16x8192x64 where
  lhsContracting := [2]
  rhsContracting := [1]
  lhsNonContracting := [1]
  rhsNonContracting := [2]
  lhsBatch := [0]
  rhsBatch := [0]
  wf := dot_S16x8192x64_S16x64x64_S16x8192x64_2_1_1_2_0_0_wf

class Facts : Prop extends Facts₀ where

variable [Facts]
-- ==== Proof.LinAttnSpec.lean ====
/-
  Linear attention with the feature map `φ(x) = elu(x) + 1`, as one function of the three argument arrays.

  For a batch `b`, a row `n` and a column `e`, with `q, k, v : [16, 8192, 64]`:
      kv[b, d, e]  = ∑ m, φ(k[b, m, d]) · v[b, m, e]               (a 64 × 64 matrix per batch)
      out[b, n, e] = (∑ d, φ(q[b, n, d]) · kv[b, d, e]) · 2⁻¹⁹       (D · N = 64 · 8192 = 2¹⁹)
  over the extended reals, where `φ(x) = x + 1` for `x > 0` and `exp (min x 0)` otherwise.

  Both programs compute these two sums in this very grouping (first over the sequence axis `m`, then over the
  feature axis `d`), so no sum is re-associated and no finiteness is needed. They differ in the last step only:
  one multiplies by the float `2⁻¹⁹`, the other divides by the float `2¹⁹`; both patterns are exact powers of
  two, and on the extended reals division by a non-zero real IS the product with its reciprocal, at the
  infinities too.
-/
import Idealize.ShloMosaic.PureOps.Ideal
import Idealize.ShloMosaic.PureOps.Ideal.Laws
import Idealize.ShloMosaic.Lib.ValueIdx

noncomputable section

namespace Cert.LinAttn

open Idealize.ShloMosaic Idealize.ShloMosaic.ValueIdx

/-- The pattern `0x49000000` is the real `2¹⁹ = 524288`. -/
theorem ofBits_two_pow_19 : Ideal.ofBits .f32 0x49000000#32 = ((524288 : ℝ) : EReal) := by
  simp [Ideal.ofBits, Ideal.ieee, -EReal.coe_mul]; norm_num

/-- The pattern `0x36000000` is the real `2⁻¹⁹ = 1 / 524288`. -/
theorem ofBits_two_pow_neg_19 : Ideal.ofBits .f32 0x36000000#32 = ((1 / 524288 : ℝ) : EReal) := by
  simp [Ideal.ofBits, Ideal.ieee, -EReal.coe_mul]; norm_num

/-- Dividing by `2¹⁹` is multiplying by `2⁻¹⁹`, on every extended real. -/
theorem div_two_pow_19 (x : EReal) :
    Ideal.div x (Ideal.ofBits .f32 0x49000000#32) = x * Ideal.ofBits .f32 0x36000000#32 := by
  rw [ofBits_two_pow_19, ofBits_two_pow_neg_19, Ideal.div_coe (by norm_num)]

/-- The feature map `elu(x) + 1`: `x + 1` above zero, `exp (min x 0)` elsewhere (the constants kept as the
    patterns both programs spell: `0.0` and `1.0`). -/
def phi (x : EReal) : EReal :=
  Scalar.select (FloatOps.cmpf (F := Ideal) (φ := .f32) .ogt x (Ideal.ofBits .f32 0x00000000#32))
    (x + Ideal.ofBits .f32 0x3F800000#32) (Ideal.exp (min x (Ideal.ofBits .f32 0x00000000#32)))

/-- The shape of the three arguments and of the result. -/
abbrev A : Shape := ⟨3, ![16, 8192, 64]⟩

/-- The per-batch 64 × 64 matrix `kv[b, d, e] = ∑ m, φ(k[b, m, d]) · v[b, m, e]`. -/
def kv (k v : A.Idx → EReal) (b : Fin 16) (d e : Fin 64) : EReal :=
  ∑ m : Fin 8192, phi (k (ix3 b m d)) * v (ix3 b m e)

/-- The result: `out[b, n, e] = (∑ d, φ(q[b, n, d]) · kv[b, d, e]) · 2⁻¹⁹`. -/
def out (q k v : A.Idx → EReal) : A.Idx → EReal := fun i =>
  (∑ d : Fin 64, phi (q (ix3 (i 0) (i 1) d)) * kv k v (i 0) d (i 2)) * Ideal.ofBits .f32 0x36000000#32

end Cert.LinAttn

end
-- ==== Proof.KernelBlock.lean ====
/-
  What the kernel's body stores for one batch, read at an index.

  The body loads one batch's blocks `q, k, v : [1, 8192, 64]`, drops the unit axis, applies the feature map
  `φ` to `q` and `k` entry by entry, forms the 64 × 64 matrix `kv[d, e] = ∑ m, φ(k[m, d]) · v[m, e]` (a product
  contracted along the ROWS of both operands), then `(φ(q) · kv)[n, e] = ∑ d, φ(q[n, d]) · kv[d, e]` (an ordinary
  rows-by-columns product), scales by `2⁻¹⁹` and puts the unit axis back. The changes of float format in
  between are the identity on the extended reals, and a product into the zero accumulator is the plain sum.
-/
import proofs.«148065_j19232863551966_1_alg».proof.Proof.Gen.KernelIdeal.Skeleton
import proofs.«148065_j19232863551966_1_alg».proof.Proof.LinAttnSpec
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.LinAttn

/-! ## The unit axis dropped and put back -/

/-- A `[1, 8192, 64]` block viewed as `[8192, 64]` reads `(n, e)` at `(0, n, e)`. -/
theorem dropUnit_apply {α : Type} (v : S1x8192x64.Idx → α) (h : S1x8192x64.ShapeCasts S8192x64) (n : Fin 8192) (e : Fin 64) :
    shapeCast S8192x64 v h (ix2 n e) = v (ix3 (0 : Fin 1) n e) :=
  shapeCast_apply v h (ix2 n e) (ix3 (0 : Fin 1) n e) (by
    rw [Shape.rowMajor_val_three, Shape.rowMajor_val_two]
    show (0 * 8192 + n.val) * 64 + e.val = n.val * 64 + e.val
    omega)

/-- An `[8192, 64]` value stored as a `[1, 8192, 64]` block reads `(z, n, e)` at `(n, e)`. -/
theorem addUnit_apply {α : Type} (w : S8192x64.Idx → α) (h : S8192x64.ShapeCasts S1x8192x64) (z : Fin 1) (n : Fin 8192) (e : Fin 64) :
    shapeCast S1x8192x64 w h (ix3 z n e) = w (ix2 n e) :=
  shapeCast_apply w h (ix3 z n e) (ix2 n e) (by
    rw [Shape.rowMajor_val_two, Shape.rowMajor_val_three]
    show n.val * 64 + e.val = (z.val * 8192 + n.val) * 64 + e.val
    have := z.isLt
    omega)

/-! ## The product contracted along both operands' rows: `(aᵀ · b)[d, e] = ∑ m, a[m, d] · b[m, e]` -/

theorem lhs_rows_0 (i : S64x64.Idx) (q : dot_S8192x64_S8192x64_S64x64_0_0_1_1_n_n.contr.Idx) :
    (dot_S8192x64_S8192x64_S64x64_0_0_1_1_n_n.lhsIdx i q 0).val = (q ⟨0, by decide⟩).val :=
  dot_S8192x64_S8192x64_S64x64_0_0_1_1_n_n.lhsIdx_val_of_single rfl i q
theorem lhs_rows_1 (i : S64x64.Idx) (q : dot_S8192x64_S8192x64_S64x64_0_0_1_1_n_n.contr.Idx) :
    (dot_S8192x64_S8192x64_S64x64_0_0_1_1_n_n.lhsIdx i q 1).val = (i 0).val := by
  unfold DotDims.lhsIdx
  rw [dif_neg (show ¬(1 : Fin S8192x64.rank) ∈ dot_S8192x64_S8192x64_S64x64_0_0_1_1_n_n.lhsBatch by decide), dif_pos (show (1 : Fin S8192x64.rank) ∈ dot_S8192x64_S8192x64_S64x64_0_0_1_1_n_n.lhsNonContracting by decide)]
  rfl
theorem rhs_rows_0 (i : S64x64.Idx) (q : dot_S8192x64_S8192x64_S64x64_0_0_1_1_n_n.contr.Idx) :
    (dot_S8192x64_S8192x64_S64x64_0_0_1_1_n_n.rhsIdx i q 0).val = (q ⟨0, by decide⟩).val :=
  dot_S8192x64_S8192x64_S64x64_0_0_1_1_n_n.rhsIdx_val_of_single rfl i q
theorem rhs_rows_1 (i : S64x64.Idx) (q : dot_S8192x64_S8192x64_S64x64_0_0_1_1_n_n.contr.Idx) :
    (dot_S8192x64_S8192x64_S64x64_0_0_1_1_n_n.rhsIdx i q 1).val = (i 1).val := by
  unfold DotDims.rhsIdx
  rw [dif_neg (show ¬(1 : Fin S8192x64.rank) ∈ dot_S8192x64_S8192x64_S64x64_0_0_1_1_n_n.rhsBatch by decide), dif_pos (show (1 : Fin S8192x64.rank) ∈ dot_S8192x64_S8192x64_S64x64_0_0_1_1_n_n.rhsNonContracting by decide)]
  rfl

/-- The first product, into the zero accumulator, at `(d, e)`: the sum over the 8192 rows. -/
theorem rows_matmul_apply {φ₁ φ₂ : FTy} (a : FVec Ideal S8192x64 φ₁) (b : FVec Ideal S8192x64 φ₂) (d e : Fin 64) :
    matmul dot_S8192x64_S8192x64_S64x64_0_0_1_1_n_n none a b (constant S64x64 .f32 0x00000000#32) (ix2 d e)
      = ∑ m : Fin 8192, a (ix2 m d) * b (ix2 m e) := by
  simp only [matmul]
  rw [Ideal.matmul_constant_zero_apply, ← Equiv.sum_comp (contrEquiv1 dot_S8192x64_S8192x64_S64x64_0_0_1_1_n_n 8192 rfl rfl).symm]
  refine Finset.sum_congr rfl fun k _ => ?_
  have hk := contrEquiv1_symm_val dot_S8192x64_S8192x64_S64x64_0_0_1_1_n_n 8192 rfl rfl k
  have el : dot_S8192x64_S8192x64_S64x64_0_0_1_1_n_n.lhsIdx (ix2 d e) ((contrEquiv1 dot_S8192x64_S8192x64_S64x64_0_0_1_1_n_n 8192 rfl rfl).symm k) = ix2 k d := funext fun x => Fin.ext (by
    match x with
    | ⟨0, _⟩ => exact (lhs_rows_0 _ _).trans hk
    | ⟨1, _⟩ => exact lhs_rows_1 _ _)
  have er : dot_S8192x64_S8192x64_S64x64_0_0_1_1_n_n.rhsIdx (ix2 d e) ((contrEquiv1 dot_S8192x64_S8192x64_S64x64_0_0_1_1_n_n 8192 rfl rfl).symm k) = ix2 k e := funext fun x => Fin.ext (by
    match x with
    | ⟨0, _⟩ => exact (rhs_rows_0 _ _).trans hk
    | ⟨1, _⟩ => exact rhs_rows_1 _ _)
  rw [el, er]

/-! ## The rows-by-columns product: `(a · b)[n, e] = ∑ d, a[n, d] · b[d, e]` -/

theorem lhs_plain_0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
theorem lhs_plain_1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q
theorem rhs_plain_0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q
theorem rhs_plain_1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- The second product, into the zero accumulator, at `(n, e)`: the sum over the 64 features. -/
theorem plain_matmul_apply {φ₁ φ₂ : FTy} (a : FVec Ideal S8192x64 φ₁) (b : FVec Ideal S64x64 φ₂) (n : Fin 8192) (e : Fin 64) :
    matmul dot_S8192x64_S64x64_S8192x64_1_0_0_1_n_n none a b (constant S8192x64 .f32 0x00000000#32) (ix2 n e)
      = ∑ d : Fin 64, a (ix2 n d) * b (ix2 d e) := by
  simp only [matmul]
  rw [Ideal.matmul_constant_zero_apply, ← Equiv.sum_comp (contrEquiv1 dot_S8192x64_S64x64_S8192x64_1_0_0_1_n_n 64 rfl rfl).symm]
  refine Finset.sum_congr rfl fun k _ => ?_
  have hk := contrEquiv1_symm_val dot_S8192x64_S64x64_S8192x64_1_0_0_1_n_n 64 rfl rfl k
  have el : dot_S8192x64_S64x64_S8192x64_1_0_0_1_n_n.lhsIdx (ix2 n e) ((contrEquiv1 dot_S8192x64_S64x64_S8192x64_1_0_0_1_n_n 64 rfl rfl).symm k) = ix2 n k := funext fun x => Fin.ext (by
    match x with
    | ⟨0, _⟩ => exact lhs_plain_0 _ _
    | ⟨1, _⟩ => exact (lhs_plain_1 _ _).trans hk)
  have er : dot_S8192x64_S64x64_S8192x64_1_0_0_1_n_n.rhsIdx (ix2 n e) ((contrEquiv1 dot_S8192x64_S64x64_S8192x64_1_0_0_1_n_n 64 rfl rfl).symm k) = ix2 k e := funext fun x => Fin.ext (by
    match x with
    | ⟨0, _⟩ => exact (rhs_plain_0 _ _).trans hk
    | ⟨1, _⟩ => exact rhs_plain_1 _ _)
  rw [el, er]

/-! ## The feature map on a block -/

/-- `φ` applied to every entry of an `[8192, 64]` value, as the body spells it: a compare against `0.0`, `x + 1.0`,
    `exp (min x 0.0)`, and the select between the two. -/
def feat (x : FVec Ideal S8192x64 .f32) : FVec Ideal S8192x64 .f32 :=
  select (cmpf .ogt x (broadcast S8192x64 (Scalar.ofBits .f32 0x00000000#32)))
    (addf x (broadcast S8192x64 (Scalar.ofBits .f32 0x3F800000#32)))
    (exp (minimumf x (broadcast S8192x64 (Scalar.ofBits .f32 0x00000000#32))))

theorem feat_apply (x : FVec Ideal S8192x64 .f32) (j : S8192x64.Idx) : feat x j = phi (x j) := rfl

/-! ## The stored value -/

/-- The body's stored value is the chain described above (the printed lines, with `φ` folded into `feat`). -/
theorem pay_eq (v0 v2 v4 : Vec Ideal S1x8192x64 .f32) :
    k0_pay1 (F := Ideal) v0 v2 v4
      = shapeCast S1x8192x64
          (mulf
            (matmul dot_S8192x64_S64x64_S8192x64_1_0_0_1_n_n none
              (truncf .bf16 (feat (shapeCast S8192x64 v0 shapeCasts_S1x8192x64_S8192x64)) bitsLt_bf16_f32)
              (truncf .bf16
                (matmul dot_S8192x64_S8192x64_S64x64_0_0_1_1_n_n none
                  (truncf .bf16 (feat (shapeCast S8192x64 v2 shapeCasts_S1x8192x64_S8192x64)) bitsLt_bf16_f32)
                  (truncf .bf16 (shapeCast S8192x64 v4 shapeCasts_S1x8192x64_S8192x64) bitsLt_bf16_f32)
                  (constant S64x64 .f32 0x00000000#32))
                bitsLt_bf16_f32)
              (constant S8192x64 .f32 0x00000000#32))
            (broadcast S8192x64 (Scalar.ofBits .f32 0x36000000#32)))
          shapeCasts_S8192x64_S1x8192x64 := rfl

/-- The stored block at `(z, n, e)`, from the three loaded blocks:
    `(∑ d, φ(q[0, n, d]) · ∑ m, φ(k[0, m, d]) · v[0, m, e]) · 2⁻¹⁹`. -/
theorem pay_apply (v0 v2 v4 : Vec Ideal S1x8192x64 .f32) (z : Fin 1) (n : Fin 8192) (e : Fin 64) :
    k0_pay1 (F := Ideal) v0 v2 v4 (ix3 z n e)
      = (∑ d : Fin 64, phi (v0 (ix3 (0 : Fin 1) n d)) * ∑ m : Fin 8192, phi (v2 (ix3 (0 : Fin 1) m d)) * v4 (ix3 (0 : Fin 1) m e))
          * Ideal.ofBits .f32 0x36000000#32 := by
  rw [pay_eq, addUnit_apply, mulf_apply, broadcast_apply, plain_matmul_apply]
  refine congrArg (· * _) (Finset.sum_congr rfl fun d _ => ?_)
  rw [truncf_apply, truncf_apply, feat_apply, dropUnit_apply, rows_matmul_apply]
  refine congrArg (_ * ·) (Finset.sum_congr rfl fun m _ => ?_)
  rw [truncf_apply, truncf_apply, feat_apply, dropUnit_apply, dropUnit_apply]

end Cert.KernelIdeal.Block

end
-- ==== Proof.KernelValue.lean ====
/-
  From the blocks to the whole result array.

  The grid has one point per batch: at point `t` every window's block is the `[1, 8192, 64]` slab `(t, ·, ·)` of
  its array. So what point `t` writes back is slab `t` of `out q k v`: the stored block at `(z, n, e)` is the
  two sums over the loaded slabs of `q, k, v`, which are the arguments at `(t, ·, ·)`. The sixteen slabs tile the
  result array, so after the run the array IS `out` of the three arguments.
-/
import proofs.«148065_j19232863551966_1_alg».proof.Proof.Gen.KernelIdeal.Value
import proofs.«148065_j19232863551966_1_alg».proof.Proof.KernelBlock
import proofs.«148065_j19232863551966_1_alg».proof.Proof.LinAttnSpec

set_option maxRecDepth 16384

noncomputable section

namespace Cert.KernelIdeal.ArrValue

open Cert.KernelIdeal Cert.KernelIdeal.Gen Cert.KernelIdeal.Block Idealize.ShloMosaic Idealize.ShloMosaic.TcCoe Idealize.SL.Sem
open Idealize.ShloMosaic.ValueIdx Cert.LinAttn
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-- The grid has sixteen points. -/
theorem N_eq : cfg0.N = 16 := by decide

/-- The batch grid point `t` works on. -/
def batch (t : Fin cfg0.N) : Fin 16 := ⟨t.val, N_eq ▸ t.isLt⟩

/-- At point `t` every window's block index is `(t, 0, 0)` (decided over the sixteen points). -/
theorem block_index : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-! ## A block's index inside its array -/

theorem emb0 (t : Fin cfg0.N) (y : S1x8192x64.Idx) :
    ((cfg0.win 0).blk t).view.emb y = ix3 (n0 := 16) (n1 := 8192) (n2 := 64) (batch t) (y 1) (y 2) := by
  obtain ⟨⟨e0, e1, e2⟩, -⟩ := block_index t
  funext a; apply Fin.ext
  match a with
  | ⟨0, _⟩ => show win0_0.index t (0 : Fin 3) * 1 + 1 * (y 0).val = t.val; have hy : (y 0).val < 1 := (y 0).isLt; omega
  | ⟨1, _⟩ => show win0_0.index t (1 : Fin 3) * 8192 + 1 * (y 1).val = (y 1).val; omega
  | ⟨2, _⟩ => show win0_0.index t (2 : Fin 3) * 64 + 1 * (y 2).val = (y 2).val; omega

theorem emb1 (t : Fin cfg0.N) (y : S1x8192x64.Idx) :
    ((cfg0.win 1).blk t).view.emb y = ix3 (n0 := 16) (n1 := 8192) (n2 := 64) (batch t) (y 1) (y 2) := by
  obtain ⟨-, ⟨e0, e1, e2⟩, -⟩ := block_index t
  funext a; apply Fin.ext
  match a with
  | ⟨0, _⟩ => show win0_1.index t (0 : Fin 3) * 1 + 1 * (y 0).val = t.val; have hy : (y 0).val < 1 := (y 0).isLt; omega
  | ⟨1, _⟩ => show win0_1.index t (1 : Fin 3) * 8192 + 1 * (y 1).val = (y 1).val; omega
  | ⟨2, _⟩ => show win0_1.index t (2 : Fin 3) * 64 + 1 * (y 2).val = (y 2).val; omega

theorem emb2 (t : Fin cfg0.N) (y : S1x8192x64.Idx) :
    ((cfg0.win 2).blk t).view.emb y = ix3 (n0 := 16) (n1 := 8192) (n2 := 64) (batch t) (y 1) (y 2) := by
  obtain ⟨-, -, ⟨e0, e1, e2⟩, -⟩ := block_index t
  funext a; apply Fin.ext
  match a with
  | ⟨0, _⟩ => show win0_2.index t (0 : Fin 3) * 1 + 1 * (y 0).val = t.val; have hy : (y 0).val < 1 := (y 0).isLt; omega
  | ⟨1, _⟩ => show win0_2.index t (1 : Fin 3) * 8192 + 1 * (y 1).val = (y 1).val; omega
  | ⟨2, _⟩ => show win0_2.index t (2 : Fin 3) * 64 + 1 * (y 2).val = (y 2).val; omega

theorem emb3 (t : Fin cfg0.N) (y : S1x8192x64.Idx) :
    ((cfg0.win 3).blk t).view.emb y = ix3 (n0 := 16) (n1 := 8192) (n2 := 64) (batch t) (y 1) (y 2) := by
  obtain ⟨-, -, -, e0, e1, e2⟩ := block_index t
  funext a; apply Fin.ext
  match a with
  | ⟨0, _⟩ => show win0_3.index t (0 : Fin 3) * 1 + 1 * (y 0).val = t.val; have hy : (y 0).val < 1 := (y 0).isLt; omega
  | ⟨1, _⟩ => show win0_3.index t (1 : Fin 3) * 8192 + 1 * (y 1).val = (y 1).val; omega
  | ⟨2, _⟩ => show win0_3.index t (2 : Fin 3) * 64 + 1 * (y 2).val = (y 2).val; omega

/-! ## The three input slabs are the arguments at batch `t` -/

theorem slab_q (c : Dev nD) (t : Fin cfg0.N) (n : Fin 8192) (d : Fin 64) :
    iblk m c 0 t (ix3 (0 : Fin 1) n d) = V m c main_arg0 (ix3 (batch t) n d) := by
  show V m c main_arg0 (((cfg0.win 0).blk t).view.emb (ix3 (0 : Fin 1) n d)) = _
  exact congrArg (V m c main_arg0) (emb0 t _)

theorem slab_k (c : Dev nD) (t : Fin cfg0.N) (n : Fin 8192) (d : Fin 64) :
    iblk m c 1 t (ix3 (0 : Fin 1) n d) = V m c main_arg1 (ix3 (batch t) n d) := by
  show V m c main_arg1 (((cfg0.win 1).blk t).view.emb (ix3 (0 : Fin 1) n d)) = _
  exact congrArg (V m c main_arg1) (emb1 t _)

theorem slab_v (c : Dev nD) (t : Fin cfg0.N) (n : Fin 8192) (d : Fin 64) :
    iblk m c 2 t (ix3 (0 : Fin 1) n d) = V m c main_arg2 (ix3 (batch t) n d) := by
  show V m c main_arg2 (((cfg0.win 2).blk t).view.emb (ix3 (0 : Fin 1) n d)) = _
  exact congrArg (V m c main_arg2) (emb2 t _)

/-! ## What a point writes back -/

/-- Point `t` writes back slab `t` of `out` of the three arguments. -/
theorem flushed_eq (c : Dev nD) (t : Fin cfg0.N) :
    (dats m 0 c).flushed 3 t
      = ((cfg0.win 3).blk t).view.read (Elt Ideal) (out (V m c main_arg0) (V m c main_arg1) (V m c main_arg2)) := by
  rw [Cert.KernelIdeal.Value.flushed3]
  unfold out0_3
  rw [View.canon_unit_zero zero_offsets]
  simp only [View.ld_unit_zero (S := S1x8192x64) zero_offsets]
  funext j
  show k0_pay1 (F := Ideal) (iblk m c 0 t) (iblk m c 1 t) (iblk m c 2 t) j
      = out (V m c main_arg0) (V m c main_arg1) (V m c main_arg2) (((cfg0.win 3).blk t).view.emb j)
  have hj : j = ix3 (n0 := 1) (n1 := 8192) (n2 := 64) (j 0) (j 1) (j 2) := eq_ix3 j
  refine ((congrArg (k0_pay1 (F := Ideal) (iblk m c 0 t) (iblk m c 1 t) (iblk m c 2 t)) hj).trans
    (pay_apply (iblk m c 0 t) (iblk m c 1 t) (iblk m c 2 t) (j 0) (j 1) (j 2))).trans ?_
  refine Eq.trans ?_ (congrArg (out (V m c main_arg0) (V m c main_arg1) (V m c main_arg2)) (emb3 t j).symm)
  show _ = (∑ d : Fin 64, phi (V m c main_arg0 (ix3 (batch t) (j 1) d))
      * kv (V m c main_arg1) (V m c main_arg2) (batch t) d (j 2)) * Ideal.ofBits .f32 0x36000000#32
  refine congrArg (· * _) (Finset.sum_congr rfl fun d _ => ?_)
  refine congrArg₂ (· * ·) (congrArg phi (slab_q m c t (j 1) d)) (Finset.sum_congr rfl fun mm _ => ?_)
  exact congrArg₂ (· * ·) (congrArg phi (slab_k m c t mm d)) (slab_v m c t mm (j 2))

/-! ## The sixteen slabs tile the array -/

theorem mem_slab (t : Fin cfg0.N) (i : S16x8192x64.Idx) :
    i ∈ ((cfg0.win 3).blk t).view.set ↔ ∀ a : Fin 3, win0_3.index t a * S1x8192x64.size a ≤ (i a).val
      ∧ (i a).val < win0_3.index t a * S1x8192x64.size a + S1x8192x64.size a := by
  show i ∈ ((View.whole main_v0).slice (win0_3.rect t)).set ↔ _
  rw [View.set_slice_whole, Rect.mem_set_unit]
  exact Iff.rfl

/-- Every index `(b, n, e)` of the result lies in the slab of point `b`. -/
theorem cover (i : S16x8192x64.Idx) :
    ∃ t : Fin cfg0.N, (cfg0.win 3).flush t = true ∧ i ∈ ((cfg0.win 3).blk t).view.set := by
  have h0 : (i 0).val < 16 := (i 0).isLt
  have h1 : (i 1).val < 8192 := (i 1).isLt
  have h2 : (i 2).val < 64 := (i 2).isLt
  have hlt : (i 0).val < cfg0.N := N_eq ▸ h0
  refine ⟨⟨(i 0).val, hlt⟩, flush0_3 _, ?_⟩
  rw [mem_slab]
  obtain ⟨-, -, -, e0, e1, e2⟩ := block_index ⟨(i 0).val, hlt⟩
  have e0' : win0_3.index ⟨(i 0).val, hlt⟩ (0 : Fin 3) = (i 0).val := e0
  intro a
  match a with
  | ⟨0, _⟩ =>
    show win0_3.index _ (0 : Fin 3) * 1 ≤ (i 0).val ∧ (i 0).val < win0_3.index _ (0 : Fin 3) * 1 + 1
    rw [e0']; omega
  | ⟨1, _⟩ =>
    show win0_3.index _ (1 : Fin 3) * 8192 ≤ (i 1).val ∧ (i 1).val < win0_3.index _ (1 : Fin 3) * 8192 + 8192
    rw [e1]; omega
  | ⟨2, _⟩ =>
    show win0_3.index _ (2 : Fin 3) * 64 ≤ (i 2).val ∧ (i 2).val < win0_3.index _ (2 : Fin 3) * 64 + 64
    rw [e2]; omega

/-- After the run the result array is `out` of the three arguments as launched. -/
theorem final (c : Dev nD) :
    (dats m 0 c).arrAt 3 cfg0.N
      = out (m ((c : Thread nD τ).loc main_arg0)) (m ((c : Thread nD τ).loc main_arg1)) (m ((c : Thread nD τ).loc main_arg2)) :=
  (dats m 0 c).arrAt_eq_of_cover 3 (out (V m c main_arg0) (V m c main_arg1) (V m c main_arg2))
    (fun t _ => flushed_eq m c t) cover

/-- The kernel's run: the result array ends at `out` of the arguments, the arguments unchanged. -/
theorem run : θ_run defs (onTc (τ := τ) (main (F := Ideal))) ⟨m, fun _ => 0, ρ⟩ fun r => ∀ c : Dev nD,
      r.2.mem ((c : Thread nD τ).loc main_v0)
        = out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.ArrValue

end
-- ==== Proof.RefValue.lean ====
/-
  The reference's result is the specification.

  Stage by stage: the reference applies `φ` to `q` and `k` over the whole `[16, 8192, 64]` arrays (compare, add, min,
  exp, select), contracts `φ(k)` with `v` along the sequence axis for each batch (`kv[b, d, e]`), contracts `φ(q)`
  with `kv` along the feature axis, and divides by `2¹⁹`. Read at an index these are the two sums of the
  specification, and the division is the product with `2⁻¹⁹`.
-/
import proofs.«148065_j19232863551966_1_alg».proof.Proof.Gen.ReferenceIdeal.Read
import proofs.«148065_j19232863551966_1_alg».proof.Proof.LinAttnSpec

noncomputable section

namespace Cert.ReferenceIdeal.RefValue

open Cert.ReferenceIdeal Cert.ReferenceIdeal.Read Idealize.ShloMosaic Idealize.ShloMosaic.ValueIdx Cert.LinAttn

/-- `φ(q)` over the whole array, entry by entry. -/
theorem featq_apply (x0 : (⟨S16x8192x64, .f32⟩ : BufTy).Contents (Elt Ideal)) (i : S16x8192x64.Idx) :
    val_main_v7 (F := Ideal) x0 i = phi (x0 i) := by
  rw [val_main_v7_apply, val_main_v1_apply, val_main_v3_apply, val_main_v6_apply, val_main_v5_apply,
    val_main_v0_apply, val_main_v2_apply, val_main_v4_apply]
  rfl

/-- `φ(k)` over the whole array, entry by entry. -/
theorem featk_apply (x1 : (⟨S16x8192x64, .f32⟩ : BufTy).Contents (Elt Ideal)) (i : S16x8192x64.Idx) :
    val_main_v15 (F := Ideal) x1 i = phi (x1 i) := by
  rw [val_main_v15_apply, val_main_v9_apply, val_main_v11_apply, val_main_v14_apply, val_main_v13_apply,
    val_main_v8_apply, val_main_v10_apply, val_main_v12_apply]
  rfl

/-- The first contraction at `(b, d, e)` is `kv[b, d, e]`. -/
theorem kv_apply (x1 x2 : (⟨S16x8192x64, .f32⟩ : BufTy).Contents (Elt Ideal)) (b : Fin 16) (d e : Fin 64) :
    val_main_v16 (F := Ideal) x1 x2 (ix3 b d e) = kv x1 x2 b d e := by
  rw [val_main_v16_apply]
  unfold kv
  refine Finset.sum_congr rfl fun m _ => ?_
  rw [featk_apply]
  have el : lidx_main_v16 (ix3 b d e) m = ix3 b m d := funext fun a => by
    match a with | ⟨0, _⟩ => rfl | ⟨1, _⟩ => rfl | ⟨2, _⟩ => rfl
  have er : ridx_main_v16 (ix3 b d e) m = ix3 b m e := funext fun a => by
    match a with | ⟨0, _⟩ => rfl | ⟨1, _⟩ => rfl | ⟨2, _⟩ => rfl
  rw [el, er]

/-- The reference's result array is `out` of its arguments. -/
theorem result_eq (x0 x1 x2 : (⟨S16x8192x64, .f32⟩ : BufTy).Contents (Elt Ideal)) :
    val_main_v19 (F := Ideal) x0 x1 x2 = out x0 x1 x2 := by
  funext i
  rw [val_main_v19_apply, val_main_v17_apply, val_main_v18_apply]
  show Ideal.div _ (Ideal.ofBits .f32 0x49000000#32) = _
  rw [div_two_pow_19]
  unfold out
  refine congrArg (· * _) (Finset.sum_congr rfl fun d _ => ?_)
  rw [featq_apply]
  have el : lidx_main_v17 i d = ix3 (n0 := 16) (n1 := 8192) (n2 := 64) (i 0) (i 1) d := funext fun a => by
    match a with | ⟨0, _⟩ => rfl | ⟨1, _⟩ => rfl | ⟨2, _⟩ => rfl
  have er : ridx_main_v17 i d = ix3 (n0 := 16) (n1 := 64) (n2 := 64) (i 0) d (i 2) := funext fun a => by
    match a with | ⟨0, _⟩ => rfl | ⟨1, _⟩ => rfl | ⟨2, _⟩ => rfl
  rw [el, er]
  exact congrArg (_ * ·) (kv_apply x1 x2 (i 0) d (i 2))

end Cert.ReferenceIdeal.RefValue

end
-- ==== Proof.lean ====
/-
  Linear attention with the feature map `φ(x) = elu(x) + 1`, kernel against reference, over the extended reals.

  Both programs compute, for `q, k, v : [16, 8192, 64]`,
      out[b, n, e] = (∑ d, φ(q[b, n, d]) · ∑ m, φ(k[b, m, d]) · v[b, m, e]) scaled by 2⁻¹⁹,
  with the same grouping of the two sums. The kernel works one batch per grid point on `[1, 8192, 64]` slabs,
  rounds its matrix-product operands to a shorter float format (the identity on the extended reals) and
  multiplies by the float `2⁻¹⁹`; the reference works on the whole arrays and divides by the float `2¹⁹`.
  Division by a non-zero real is the product with its reciprocal on every extended real, so the two results are
  one function of the arguments (`Cert.LinAttn.out`), and no finiteness of the inputs is used.

  The three frames: the two kernel programs' are the generated frame runs; the reference's is its generated run
  with the result forgotten. The idealization rewrote nothing, so `preserves` is `True`.
-/
import proofs.«148065_j19232863551966_1_alg».proof.Defs
import proofs.«148065_j19232863551966_1_alg».proof.Proof.Gen.Kernel
import proofs.«148065_j19232863551966_1_alg».proof.Proof.Gen.Kernel.Skeleton
import proofs.«148065_j19232863551966_1_alg».proof.Proof.Gen.Kernel.Launch
import proofs.«148065_j19232863551966_1_alg».proof.Proof.Gen.Kernel.Points
import proofs.«148065_j19232863551966_1_alg».proof.Proof.Gen.Kernel.Frame
import proofs.«148065_j19232863551966_1_alg».proof.Proof.Gen.KernelIdeal
import proofs.«148065_j19232863551966_1_alg».proof.Proof.Gen.KernelIdeal.Skeleton
import proofs.«148065_j19232863551966_1_alg».proof.Proof.Gen.KernelIdeal.Launch
import proofs.«148065_j19232863551966_1_alg».proof.Proof.Gen.KernelIdeal.Points
import proofs.«148065_j19232863551966_1_alg».proof.Proof.Gen.KernelIdeal.Frame
import proofs.«148065_j19232863551966_1_alg».proof.Proof.Gen.ReferenceIdeal
import proofs.«148065_j19232863551966_1_alg».proof.Proof.Gen.Pre_finite_inputs
import proofs.«148065_j19232863551966_1_alg».proof.Proof.Gen.KernelIdeal.Value
import proofs.«148065_j19232863551966_1_alg».proof.Proof.Gen.ReferenceIdeal.Run
import proofs.«148065_j19232863551966_1_alg».proof.Proof.Gen.ReferenceIdeal.Read
import proofs.«148065_j19232863551966_1_alg».proof.Proof.LinAttnSpec
import proofs.«148065_j19232863551966_1_alg».proof.Proof.KernelBlock
import proofs.«148065_j19232863551966_1_alg».proof.Proof.KernelValue
import proofs.«148065_j19232863551966_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `q, k, v`, the kernel's result array ends at `out q k v` (the slabs tile it) and
    the reference's at its composed term, which is `out` of the same arguments read index by index. -/
theorem algebraic : Cert.algebraic_KernelIdeal_ReferenceIdeal := by
  intro m ρ m' ρ' _ hagree
  refine ⟨_, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v19_eq _ _ _).trans (Cert.ReferenceIdeal.RefValue.result_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
